-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50x30000 : Shape := ⟨3, ![64, 50, 30000]⟩
abbrev S30000x300 : Shape := ⟨2, ![30000, 300]⟩
abbrev S_ : Shape := ⟨0, ![]⟩

class Facts : Prop where
  bcast_S_S64x50x30000 : S_.BroadcastsInDim S64x50x30000 (![] : Fin 0 → Fin S64x50x30000.rank)
  reducesTo_S64x50x30000_S_d0_1_2 : S64x50x30000.ReducesTo [0, 1, 2] S_
  h_S_ : 0 < S_.numel
  bcast_S_S30000x300 : S_.BroadcastsInDim S30000x300 (![] : Fin 0 → Fin S30000x300.rank)
  reducesTo_S30000x300_S_d0_1 : S30000x300.ReducesTo [0, 1] S_

variable [Facts]

def fn {F : FTy → Type} [FloatOps F] (main_arg0 : FVec F S64x50x30000 .f32) (main_arg1 : FVec F S30000x300 .f32) : IVec S_ 1 :=
  let main_v0 : FVec F S64x50x30000 .f32 := Host.absf main_arg0
  let main_cst : FVec F S_ .f32 := constant S_ .f32 0x7F800000#32
  let main_v1 : FVec F S64x50x30000 .f32 := broadcastInDim S64x50x30000 ![] bcast_S_S64x50x30000 main_cst
  let main_v2 : IVec S64x50x30000 1 := cmpf .olt main_v0 main_v1
  let main_c : IVec S_ 1 := constantI S_ 1 1#1
  let main_v3 : IVec S_ 1 := (fun x v => Host.reduce IntOp.andi x v reducesTo_S64x50x30000_S_d0_1_2 h_S_) main_v2 main_c
  let main_v4 : FVec F S30000x300 .f32 := Host.absf main_arg1
  let main_cst_0 : FVec F S_ .f32 := constant S_ .f32 0x7F800000#32
  let main_v5 : FVec F S30000x300 .f32 := broadcastInDim S30000x300 ![] bcast_S_S30000x300 main_cst_0
  let main_v6 : IVec S30000x300 1 := cmpf .olt main_v4 main_v5
  let main_c_1 : IVec S_ 1 := constantI S_ 1 1#1
  let main_v7 : IVec S_ 1 := (fun x v => Host.reduce IntOp.andi x v reducesTo_S30000x300_S_d0_1 h_S_) main_v6 main_c_1
  let main_v8 : IVec S_ 1 := andi main_v3 main_v7
  main_v8
-- ==== Kernel.lean ====
abbrev S64x50x30000 : Shape := ⟨3, ![64, 50, 30000]⟩
abbrev S30000x300 : Shape := ⟨2, ![30000, 300]⟩
abbrev S_ : Shape := ⟨0, ![]⟩
abbrev S30720x300 : Shape := ⟨2, ![30720, 300]⟩
abbrev S3200x30000 : Shape := ⟨2, ![3200, 30000]⟩
abbrev S3200x300 : Shape := ⟨2, ![3200, 300]⟩
abbrev S800x1920 : Shape := ⟨2, ![800, 1920]⟩
abbrev S1920x300 : Shape := ⟨2, ![1920, 300]⟩
abbrev S800x300 : Shape := ⟨2, ![800, 300]⟩
abbrev S64x50x300 : Shape := ⟨3, ![64, 50, 300]⟩

abbrev nBuf : Space → Nat
  | .hbm => 8
  | .vmem => 7
  | .smem => 0
  | _ => 0

abbrev bufTy : (tb : Table) → Fin (tcTables nBuf tb) → BufTy
  | .hbm, ⟨0, _⟩ => ⟨S64x50x30000, .f32⟩
  | .hbm, ⟨1, _⟩ => ⟨S30000x300, .f32⟩
  | .hbm, ⟨2, _⟩ => ⟨S_, .i32⟩
  | .hbm, ⟨3, _⟩ => ⟨S_, .f32⟩
  | .hbm, ⟨4, _⟩ => ⟨S30720x300, .f32⟩
  | .hbm, ⟨5, _⟩ => ⟨S3200x30000, .f32⟩
  | .hbm, ⟨6, _⟩ => ⟨S3200x300, .f32⟩
  | .hbm, ⟨7, _⟩ => ⟨S64x50x300, .f32⟩
  | .local _ .vmem, ⟨0, _⟩ => ⟨S800x1920, .f32⟩
  | .local _ .vmem, ⟨1, _⟩ => ⟨S800x1920, .f32⟩
  | .local _ .vmem, ⟨2, _⟩ => ⟨S1920x300, .f32⟩
  | .local _ .vmem, ⟨3, _⟩ => ⟨S1920x300, .f32⟩
  | .local _ .vmem, ⟨4, _⟩ => ⟨S800x300, .f32⟩
  | .local _ .vmem, ⟨5, _⟩ => ⟨S800x300, .f32⟩
  | .local _ .vmem, ⟨6, _⟩ => ⟨S800x300, .f32⟩
  | _, _ => ⟨S64x50x30000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S800x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1920x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S800x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  pads_S30000x300_S30720x300_07200_000 : S30000x300.Pads (![0, 0] : Fin 2 → Nat) ![720, 0] ![0, 0] S30720x300
  h_S_ : 0 < S_.numel
  shapeCasts_S64x50x30000_S3200x30000 : S64x50x30000.ShapeCasts S3200x30000
  inb_S800x300_S800x300_0_0 : ∀ a, (![0, 0] : Fin 2 → Nat) a + S800x300.size a ≤ S800x300.size a
  h_S800x300 : 0 < S800x300.numel
  shapeCasts_S800x300_S800x300 : S800x300.ShapeCasts S800x300
  inb_S800x1920_S800x1920_0_0 : ∀ a, (![0, 0] : Fin 2 → Nat) a + S800x1920.size a ≤ S800x1920.size a
  h_S800x1920 : 0 < S800x1920.numel
  shapeCasts_S800x1920_S800x1920 : S800x1920.ShapeCasts S800x1920
  bitsLt_bf16_f32 : FTy.bits .bf16 < FTy.bits .f32
  inb_S1920x300_S1920x300_0_0 : ∀ a, (![0, 0] : Fin 2 → Nat) a + S1920x300.size a ≤ S1920x300.size a
  h_S1920x300 : 0 < S1920x300.numel
  shapeCasts_S1920x300_S1920x300 : S1920x300.ShapeCasts S1920x300
  shapeCasts_S3200x300_S64x50x300 : S3200x300.ShapeCasts S64x50x300
  dot_S800x1920_S1920x300_S800x300_1_0_0_1_n_n_wf : DotDims.WF S800x1920 S1920x300 S800x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S800x1920.size a < S3200x30000.size a
  hwx0_0 : ∀ i : grid0.Coords, EltTy.bits .f32 = 32 ∨ (Rect.unit (s := S3200x30000) (fun a => cc0_transform_0 i a * S800x1920.size a) (fun a => (Pipeline.Clip.of (cc0_transform_0 i a) (S800x1920.size a) (S3200x30000.size a)).extent (S800x1920.size a)) fun a => Pipeline.Clip.inb (Pipeline.Clip.ok_of (hstart0_0 i a))).WholeWords (EltTy.packing .f32)
  hwxs0_0 : ∀ i : grid0.Coords, EltTy.bits .f32 = 32 ∨ (Rect.unit (s := S800x1920) (fun _ => 0) (fun a => (Pipeline.Clip.of (cc0_transform_0 i a) (S800x1920.size a) (S3200x30000.size a)).extent (S800x1920.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1920x300.size a ≤ S30720x300.size a
  hwx0_1 : ∀ i : grid0.Coords, EltTy.bits .f32 = 32 ∨ (Rect.block (s := S30720x300) S1920x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x300.size a ≤ S3200x300.size a
  hwx0_2 : ∀ i : grid0.Coords, EltTy.bits .f32 = 32 ∨ (Rect.block (s := S3200x300) S800x300.size (cc0_transform_2 i) (hinb0_2 i)).WholeWords (EltTy.packing .f32)

variable [Facts₀]

def dot_S800x1920_S1920x300_S800x300_1_0_0_1_n_n : DotDims S800x1920 S1920x300 S800x300 where
  lhsContracting := [1]
  rhsContracting := [0]
  lhsNonContracting := [0]
  rhsNonContracting := [1]
  lhsBatch := []
  rhsBatch := []
  wf := dot_S800x1920_S1920x300_S800x300_1_0_0_1_n_n_wf

abbrev win0_0 : Pipeline.Window sig grid0 :=
  Pipeline.Window.ofSpecClip (Memref.whole main_v1) S800x1920.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S1920x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S800x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x50x30000 : Shape := ⟨3, ![64, 50, 30000]⟩
abbrev S30000x300 : Shape := ⟨2, ![30000, 300]⟩
abbrev S64x50x300 : Shape := ⟨3, ![64, 50, 300]⟩

abbrev nBuf : Space → Nat
  | .hbm => 3
  | .vmem => 0
  | .smem => 0
  | _ => 0

abbrev bufTy : (tb : Table) → Fin (tcTables nBuf tb) → BufTy
  | .hbm, ⟨0, _⟩ => ⟨S64x50x30000, .f32⟩
  | .hbm, ⟨1, _⟩ => ⟨S30000x300, .f32⟩
  | .hbm, ⟨2, _⟩ => ⟨S64x50x300, .f32⟩
  | _, _ => ⟨S64x50x30000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S64x50x30000_S30000x300_S64x50x300_2_0_01_1_n_n_wf : DotDims.WF S64x50x30000 S30000x300 S64x50x300 [2] [0] [0, 1] [1] [] []

variable [Facts₀]

def dot_S64x50x30000_S30000x300_S64x50x300_2_0_01_1_n_n : DotDims S64x50x30000 S30000x300 S64x50x300 where
  lhsContracting := [2]
  rhsContracting := [0]
  lhsNonContracting := [0, 1]
  rhsNonContracting := [1]
  lhsBatch := []
  rhsBatch := []
  wf := dot_S64x50x30000_S30000x300_S64x50x300_2_0_01_1_n_n_wf

class Facts : Prop extends Facts₀ where

variable [Facts]
-- ==== Proof.BodyRun.lean ====
/-
  The kernel body, run once, on whole staging memrefs at any contents: `x0` the left block (800 x 1920), `x1` the
  right block (1920 x 300), `x2` the result's staging block, `xs` the accumulator scratch (800 x 300). Whatever the
  float instance, the body leaves the two input blocks as they were and the accumulator at
  `k0_pay2 x0 x1 a` — the accumulator's entry value `a` plus the product of the two blocks — where `a` is the zero
  block `k0_pay1` at the first point of a row of the grid (K-index 0: the reset) and `xs` elsewhere; the result's block
  is left as found except at the last K-index (15), where it receives the accumulator. Three cases of the two
  conditions on the grid point; the fourth (first and last at once) meets no point of a 4 x 16 grid.
-/
import proofs.«167342_j17918603559083_1_alg».proof.Proof.Gen.Kernel.Frame
import proofs.«167342_j17918603559083_1_alg».proof.Proof.Gen.Kernel.Skeleton
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the K-index (grid coordinate 1) is 0. -/
abbrev cond0 (i : grid0.Coords) : Prop := (Scalar.cmpi .ne (Scalar.extui (Scalar.cmpi .eq (BitVec.ofNat 32 (i 1).val) 0#32)) 0#32) = 1#1
/-- The body's second condition: the K-index is the last, 15. -/
abbrev cond2 (i : grid0.Coords) : Prop := k0_cond2 i = 1#1

/-- The offsets of every access of the body are zero on both axes. -/
theorem hz0 : (![0, 0] : Fin 2 → Nat) = fun _ => 0 := funext fun a => by fin_cases a <;> rfl

/-- At a point with K-index 0 (and not 15): the accumulator is reset to zeros, then receives the blocks' product; the result's block is untouched. -/
theorem run_first (c : Dev nD) (i : grid0.Coords)
    (arg2 : Memref sig .tc .vmem S800x1920 .f32) (harg2 : arg2.IsWhole) (arg3 : Memref sig .tc .vmem S1920x300 .f32) (harg3 : arg3.IsWhole)
    (arg4 : Memref sig .tc .vmem S800x300 .f32) (harg4 : arg4.IsWhole) (arg5 : Memref sig .tc .vmem S800x300 .f32) (harg5 : arg5.IsWhole)
    (hc0 : cond0 i) (hc2 : ¬cond2 i)
    (x0 : Vec F S800x1920 .f32) (x1 : Vec F S1920x300 .f32) (x2 : Vec F S800x300 .f32) (xs : Vec F S800x300 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (x2) ∗ owns (c : Thread nD τ) arg5 fullShare (k0_pay2 x0 x1 (k0_pay1 (F := F)))) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  · iexists _; isplitr
    swap; · iexact HS
    ipureintro
    sl_unfold_words
    rw [View.read_writes_eq_canon _ _ _ (View.cover_of_tiledL _ S800x300.size (by sl_kernel_rfl))]
    rw [View.canon_cons_unit_zero hz0]
    simp only [View.readAt_eq_ld, harg2.read_unread, harg3.read_unread, harg5.read_unread,
      View.ld_unit_zero (S := S800x1920) hz0, View.ld_unit_zero (S := S1920x300) hz0, View.ld_unit_zero (S := S800x300) hz0]
    try exact congrArg (k0_pay2 x0 x1) (View.readCov_unit_zero (S := S800x300) _ hz0 _ _)

/-- At a point with K-index neither 0 nor 15: the accumulator gains the blocks' product; the result's block is untouched. -/
theorem run_mid (c : Dev nD) (i : grid0.Coords)
    (arg2 : Memref sig .tc .vmem S800x1920 .f32) (harg2 : arg2.IsWhole) (arg3 : Memref sig .tc .vmem S1920x300 .f32) (harg3 : arg3.IsWhole)
    (arg4 : Memref sig .tc .vmem S800x300 .f32) (harg4 : arg4.IsWhole) (arg5 : Memref sig .tc .vmem S800x300 .f32) (harg5 : arg5.IsWhole)
    (hc0 : ¬cond0 i) (hc2 : ¬cond2 i)
    (x0 : Vec F S800x1920 .f32) (x1 : Vec F S1920x300 .f32) (x2 : Vec F S800x300 .f32) (xs : Vec F S800x300 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (x2) ∗ owns (c : Thread nD τ) arg5 fullShare (k0_pay2 x0 x1 xs)) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  · iexists _; isplitr
    swap; · iexact HS
    ipureintro
    sl_unfold_words
    rw [View.read_writes_eq_canon _ _ _ (View.cover_of_tiledL _ S800x300.size (by sl_kernel_rfl))]
    rw [View.canon_cons_unit_zero hz0]
    simp only [View.readAt_eq_ld, harg2.read_unread, harg3.read_unread, harg5.read_unread,
      View.ld_unit_zero (S := S800x1920) hz0, View.ld_unit_zero (S := S1920x300) hz0, View.ld_unit_zero (S := S800x300) hz0]
    try exact congrArg (k0_pay2 x0 x1) (View.readCov_unit_zero (S := S800x300) _ hz0 _ _)

/-- At a point with K-index 15 (and not 0): the accumulator gains the blocks' product and is copied whole into the result's block. -/
theorem run_last (c : Dev nD) (i : grid0.Coords)
    (arg2 : Memref sig .tc .vmem S800x1920 .f32) (harg2 : arg2.IsWhole) (arg3 : Memref sig .tc .vmem S1920x300 .f32) (harg3 : arg3.IsWhole)
    (arg4 : Memref sig .tc .vmem S800x300 .f32) (harg4 : arg4.IsWhole) (arg5 : Memref sig .tc .vmem S800x300 .f32) (harg5 : arg5.IsWhole)
    (hc0 : ¬cond0 i) (hc2 : cond2 i)
    (x0 : Vec F S800x1920 .f32) (x1 : Vec F S1920x300 .f32) (x2 : Vec F S800x300 .f32) (xs : Vec F S800x300 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (View.cover_of_tiledL _ S800x300.size (by sl_kernel_rfl))]
    rw [View.canon_unit_zero hz0]
    simp only [View.readAt_eq_ld, harg2.read_unread, harg3.read_unread, harg5.read_unread,
      View.ld_unit_zero (S := S800x1920) hz0, View.ld_unit_zero (S := S1920x300) hz0, View.ld_unit_zero (S := S800x300) hz0]
    exact View.readCov_unit_zero (S := S800x300) _ hz0 _ _
  · iexists _; isplitr
    swap; · iexact HS
    ipureintro
    sl_unfold_words
    rw [View.read_writes_eq_canon _ _ _ (View.cover_of_tiledL _ S800x300.size (by sl_kernel_rfl))]
    rw [View.canon_cons_unit_zero hz0]
    simp only [View.readAt_eq_ld, harg2.read_unread, harg3.read_unread, harg5.read_unread,
      View.ld_unit_zero (S := S800x1920) hz0, View.ld_unit_zero (S := S1920x300) hz0, View.ld_unit_zero (S := S800x300) hz0]
    try exact congrArg (k0_pay2 x0 x1) (View.readCov_unit_zero (S := S800x300) _ hz0 _ _)

end Cert.Kernel.Body

end
-- ==== Proof.FrameR.lean ====
/-
  The frame of the program, at any float instance: it runs to the end, nothing faults, and the two argument arrays end
  as they began. Nothing is said of what the arrays and buffers hold in between: the left operand's window
  overhangs its array at the last column block, so the tail of its staging buffer there holds words nothing names,
  and at a word-level instance the product carries them into the accumulator and the result. The proof data is
  therefore relational and says nothing (every relation is `True`): both input windows are fetched afresh at every
  point, the body branches on the grid point only, and the invariant is the scratch at SOME contents.
-/
import proofs.«167342_j17918603559083_1_alg».proof.Proof.BodyRun

set_option maxRecDepth 16384

noncomputable section

namespace Cert.Kernel.FrameR

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two conditions over the grid, in closed form: the K-index is the point's number modulo 16. -/
theorem hcond0 : ∀ t : Fin cfg0.N, cond0 (grid0.coords t) ↔ t.val % 16 = 0 :=
  (by decide +kernel : ∀ t : Fin grid0.N, cond0 (grid0.coords t) ↔ t.val % 16 = 0)
theorem hcond2 : ∀ t : Fin cfg0.N, cond2 (grid0.coords t) ↔ t.val % 16 = 15 :=
  (by decide +kernel : ∀ t : Fin grid0.N, cond2 (grid0.coords t) ↔ t.val % 16 = 15)

/-- The scratch accumulator as a memref. -/
abbrev scM : Memref sig .tc .vmem S800x300 .f32 := Memref.whole cc0_scratch0

/-- The class invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data that says nothing: the arrays as the region finds them, every relation `True`, the invariant the
    scratch at some contents. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point, on buffers at any contents, returns them at some contents. -/
theorem sound_body (c : Dev nD) (t : Fin cfg0.N) (Y0 : Vec F S800x1920 .f32) (Y1 : Vec F S1920x300 .f32) (Y2 : Vec F S800x300 .f32) :
    iprop((Pipeline.ΦA spec0 c : sProp 𝕄) ∗ (rdat m c).owesAt () t.castSucc
        ∗ owns (c : Thread nD τ) (st0_0 t) fullShare Y0 ∗ owns (c : Thread nD τ) (st0_1 t) fullShare Y1 ∗ owns (c : Thread nD τ) (st0_2 t) fullShare Y2)
      ⊢ wp frame (wpE (defs₀ (F := F)) Variants.none c none) Set.univ (bodyAt0 t) (fun _ =>
          iprop((Pipeline.ΦA spec0 c : sProp 𝕄) ∗ (rdat m c).owesAt () t.castSucc
            ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X))) := by
  rw [PhiA_eq]
  unfold bodyAt0
  have hN : t.val < 64 := lt_of_lt_of_eq t.isLt (show cfg0.N = 64 from N_0)
  iintro ⟨⟨⟨%xs, HS⟩, Hg⟩, Ho, H0, H1, H2⟩
  by_cases h0 : t.val % 16 = 0
  · have h2 : ¬t.val % 16 = 15 := by omega
    iapply (run_first (F := F) c (grid0.coords t) _ _ _ _ _ _ scM (Memref.isWhole_whole _) ((hcond0 t).mpr h0) (fun h => h2 ((hcond2 t).mp h)) Y0 Y1 Y2 xs Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexists _; iexact HS
      iexact Hg
    isplitl [Ho]; · iexact Ho
    isplitl [H0]; · iexists _; isplitr; · ipureintro; trivial
                    iexact H0
    isplitl [H1]; · iexists _; isplitr; · ipureintro; trivial
                    iexact H1
    iexists _; isplitr; · ipureintro; trivial
    iexact H2
  · by_cases h2 : t.val % 16 = 15
    · iapply (run_last (F := F) c (grid0.coords t) _ _ _ _ _ _ scM (Memref.isWhole_whole _) (fun h => h0 ((hcond0 t).mp h)) ((hcond2 t).mpr h2) Y0 Y1 Y2 xs Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexists _; iexact HS
        iexact Hg
      isplitl [Ho]; · iexact Ho
      isplitl [H0]; · iexists _; isplitr; · ipureintro; trivial
                      iexact H0
      isplitl [H1]; · iexists _; isplitr; · ipureintro; trivial
                      iexact H1
      iexists _; isplitr; · ipureintro; trivial
      iexact H2
    · iapply (run_mid (F := F) c (grid0.coords t) _ _ _ _ _ _ scM (Memref.isWhole_whole _) (fun h => h0 ((hcond0 t).mp h)) (fun h => h2 ((hcond2 t).mp h)) Y0 Y1 Y2 xs Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexists _; iexact HS
        iexact Hg
      isplitl [Ho]; · iexact Ho
      isplitl [H0]; · iexists _; isplitr; · ipureintro; trivial
                      iexact H0
      isplitl [H1]; · iexists _; isplitr; · ipureintro; trivial
                      iexact H1
      iexists _; isplitr; · ipureintro; trivial
      iexact H2

/-- The library's body obligation for the relational data. -/
theorem body_obligation (c : Dev nD) : (rdat (F := F) m c).BodyObligation (defs₀ (F := F)) Variants.none () Set.univ := fun t Y _ => by
  rw [bigSep_W0, bigSep_W0]
  exact sound_body m c t (Y 0) (Y 1) (Y 2)

/-- The buffers the host line after the region writes: the reshaped result. -/
abbrev tailWrites : Finset (Ref sig .tc) := {main_v3}

theorem sfx_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]; by_contra hne; exact StableHlo.devRef_ne_of_ne hne hb

set_option backward.isDefEq.respectTransparency.types false in
/-- The run: every weakly fair execution of @main terminates, nothing faulting; every buffer that bypasses the region and
    that the last host line does not write ends at its contents at the region's entry. -/
theorem run_main : θ_run defs (onTc (τ := τ) (main (F := F))) (s₀ m ρ)
    (RDat.FramePostR cfg0 (rdat m) tailWrites (V m)) :=
  RDat.θ_run_frame_around_T_track cfgs (0 : Fin 1) launch0 defs₀ Variants.none (rdat m) tailWrites m ρ main
    (hbody := body_obligation m) (hshare := fun c w => by unfold RDat.share; split <;> rfl)
    (howed := fun _ _ => rfl) (V₀ := V0 m) (opss := [hostOps1]) (hsub := sfx_sub) (hfresh := sfx_fresh) (hkeep := sfx_keeps)
    (hT := sfx_writes) (hmain := hmain m Variants.none) (hA := fun _ _ => rfl)
    (hin := fun _ => BI.Entails.refl _) (hout := fun _ => BI.Entails.refl _)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_main m ρ)

end Cert.Kernel.FrameR

end
-- ==== Proof.BodyRunIdeal.lean ====
/-
  The kernel body, run once, on whole staging memrefs at any contents: `x0` the left block (800 x 1920), `x1` the
  right block (1920 x 300), `x2` the result's staging block, `xs` the accumulator scratch (800 x 300). Whatever the
  float instance, the body leaves the two input blocks as they were and the accumulator at
  `k0_pay2 x0 x1 a` — the accumulator's entry value `a` plus the product of the two blocks — where `a` is the zero
  block `k0_pay1` at the first point of a row of the grid (K-index 0: the reset) and `xs` elsewhere; the result's block
  is left as found except at the last K-index (15), where it receives the accumulator. Three cases of the two
  conditions on the grid point; the fourth (first and last at once) meets no point of a 4 x 16 grid.
-/
import proofs.«167342_j17918603559083_1_alg».proof.Proof.Gen.KernelIdeal.Frame
import proofs.«167342_j17918603559083_1_alg».proof.Proof.Gen.KernelIdeal.Skeleton
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the K-index (grid coordinate 1) is 0. -/
abbrev cond0 (i : grid0.Coords) : Prop := (Scalar.cmpi .ne (Scalar.extui (Scalar.cmpi .eq (BitVec.ofNat 32 (i 1).val) 0#32)) 0#32) = 1#1
/-- The body's second condition: the K-index is the last, 15. -/
abbrev cond2 (i : grid0.Coords) : Prop := k0_cond2 i = 1#1

/-- The offsets of every access of the body are zero on both axes. -/
theorem hz0 : (![0, 0] : Fin 2 → Nat) = fun _ => 0 := funext fun a => by fin_cases a <;> rfl

/-- At a point with K-index 0 (and not 15): the accumulator is reset to zeros, then receives the blocks' product; the result's block is untouched. -/
theorem run_first (c : Dev nD) (i : grid0.Coords)
    (arg2 : Memref sig .tc .vmem S800x1920 .f32) (harg2 : arg2.IsWhole) (arg3 : Memref sig .tc .vmem S1920x300 .f32) (harg3 : arg3.IsWhole)
    (arg4 : Memref sig .tc .vmem S800x300 .f32) (harg4 : arg4.IsWhole) (arg5 : Memref sig .tc .vmem S800x300 .f32) (harg5 : arg5.IsWhole)
    (hc0 : cond0 i) (hc2 : ¬cond2 i)
    (x0 : Vec F S800x1920 .f32) (x1 : Vec F S1920x300 .f32) (x2 : Vec F S800x300 .f32) (xs : Vec F S800x300 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (x2) ∗ owns (c : Thread nD τ) arg5 fullShare (k0_pay2 x0 x1 (k0_pay1 (F := F)))) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  · iexists _; isplitr
    swap; · iexact HS
    ipureintro
    sl_unfold_words
    rw [View.read_writes_eq_canon _ _ _ (View.cover_of_tiledL _ S800x300.size (by sl_kernel_rfl))]
    rw [View.canon_cons_unit_zero hz0]
    simp only [View.readAt_eq_ld, harg2.read_unread, harg3.read_unread, harg5.read_unread,
      View.ld_unit_zero (S := S800x1920) hz0, View.ld_unit_zero (S := S1920x300) hz0, View.ld_unit_zero (S := S800x300) hz0]
    try exact congrArg (k0_pay2 x0 x1) (View.readCov_unit_zero (S := S800x300) _ hz0 _ _)

/-- At a point with K-index neither 0 nor 15: the accumulator gains the blocks' product; the result's block is untouched. -/
theorem run_mid (c : Dev nD) (i : grid0.Coords)
    (arg2 : Memref sig .tc .vmem S800x1920 .f32) (harg2 : arg2.IsWhole) (arg3 : Memref sig .tc .vmem S1920x300 .f32) (harg3 : arg3.IsWhole)
    (arg4 : Memref sig .tc .vmem S800x300 .f32) (harg4 : arg4.IsWhole) (arg5 : Memref sig .tc .vmem S800x300 .f32) (harg5 : arg5.IsWhole)
    (hc0 : ¬cond0 i) (hc2 : ¬cond2 i)
    (x0 : Vec F S800x1920 .f32) (x1 : Vec F S1920x300 .f32) (x2 : Vec F S800x300 .f32) (xs : Vec F S800x300 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (x2) ∗ owns (c : Thread nD τ) arg5 fullShare (k0_pay2 x0 x1 xs)) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  · iexists _; isplitr
    swap; · iexact HS
    ipureintro
    sl_unfold_words
    rw [View.read_writes_eq_canon _ _ _ (View.cover_of_tiledL _ S800x300.size (by sl_kernel_rfl))]
    rw [View.canon_cons_unit_zero hz0]
    simp only [View.readAt_eq_ld, harg2.read_unread, harg3.read_unread, harg5.read_unread,
      View.ld_unit_zero (S := S800x1920) hz0, View.ld_unit_zero (S := S1920x300) hz0, View.ld_unit_zero (S := S800x300) hz0]
    try exact congrArg (k0_pay2 x0 x1) (View.readCov_unit_zero (S := S800x300) _ hz0 _ _)

/-- At a point with K-index 15 (and not 0): the accumulator gains the blocks' product and is copied whole into the result's block. -/
theorem run_last (c : Dev nD) (i : grid0.Coords)
    (arg2 : Memref sig .tc .vmem S800x1920 .f32) (harg2 : arg2.IsWhole) (arg3 : Memref sig .tc .vmem S1920x300 .f32) (harg3 : arg3.IsWhole)
    (arg4 : Memref sig .tc .vmem S800x300 .f32) (harg4 : arg4.IsWhole) (arg5 : Memref sig .tc .vmem S800x300 .f32) (harg5 : arg5.IsWhole)
    (hc0 : ¬cond0 i) (hc2 : cond2 i)
    (x0 : Vec F S800x1920 .f32) (x1 : Vec F S1920x300 .f32) (x2 : Vec F S800x300 .f32) (xs : Vec F S800x300 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (View.cover_of_tiledL _ S800x300.size (by sl_kernel_rfl))]
    rw [View.canon_unit_zero hz0]
    simp only [View.readAt_eq_ld, harg2.read_unread, harg3.read_unread, harg5.read_unread,
      View.ld_unit_zero (S := S800x1920) hz0, View.ld_unit_zero (S := S1920x300) hz0, View.ld_unit_zero (S := S800x300) hz0]
    exact View.readCov_unit_zero (S := S800x300) _ hz0 _ _
  · iexists _; isplitr
    swap; · iexact HS
    ipureintro
    sl_unfold_words
    rw [View.read_writes_eq_canon _ _ _ (View.cover_of_tiledL _ S800x300.size (by sl_kernel_rfl))]
    rw [View.canon_cons_unit_zero hz0]
    simp only [View.readAt_eq_ld, harg2.read_unread, harg3.read_unread, harg5.read_unread,
      View.ld_unit_zero (S := S800x1920) hz0, View.ld_unit_zero (S := S1920x300) hz0, View.ld_unit_zero (S := S800x300) hz0]
    try exact congrArg (k0_pay2 x0 x1) (View.readCov_unit_zero (S := S800x300) _ hz0 _ _)

end Cert.KernelIdeal.Body

end
-- ==== Proof.FrameRIdeal.lean ====
/-
  The frame of the program, at any float instance: it runs to the end, nothing faults, and the two argument arrays end
  as they began. Nothing is said of what the arrays and buffers hold in between: the left operand's window
  overhangs its array at the last column block, so the tail of its staging buffer there holds words nothing names,
  and at a word-level instance the product carries them into the accumulator and the result. The proof data is
  therefore relational and says nothing (every relation is `True`): both input windows are fetched afresh at every
  point, the body branches on the grid point only, and the invariant is the scratch at SOME contents.
-/
import proofs.«167342_j17918603559083_1_alg».proof.Proof.BodyRunIdeal

set_option maxRecDepth 16384

noncomputable section

namespace Cert.KernelIdeal.FrameR

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two conditions over the grid, in closed form: the K-index is the point's number modulo 16. -/
theorem hcond0 : ∀ t : Fin cfg0.N, cond0 (grid0.coords t) ↔ t.val % 16 = 0 :=
  (by decide +kernel : ∀ t : Fin grid0.N, cond0 (grid0.coords t) ↔ t.val % 16 = 0)
theorem hcond2 : ∀ t : Fin cfg0.N, cond2 (grid0.coords t) ↔ t.val % 16 = 15 :=
  (by decide +kernel : ∀ t : Fin grid0.N, cond2 (grid0.coords t) ↔ t.val % 16 = 15)

/-- The scratch accumulator as a memref. -/
abbrev scM : Memref sig .tc .vmem S800x300 .f32 := Memref.whole cc0_scratch0

/-- The class invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data that says nothing: the arrays as the region finds them, every relation `True`, the invariant the
    scratch at some contents. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point, on buffers at any contents, returns them at some contents. -/
theorem sound_body (c : Dev nD) (t : Fin cfg0.N) (Y0 : Vec F S800x1920 .f32) (Y1 : Vec F S1920x300 .f32) (Y2 : Vec F S800x300 .f32) :
    iprop((Pipeline.ΦA spec0 c : sProp 𝕄) ∗ (rdat m c).owesAt () t.castSucc
        ∗ owns (c : Thread nD τ) (st0_0 t) fullShare Y0 ∗ owns (c : Thread nD τ) (st0_1 t) fullShare Y1 ∗ owns (c : Thread nD τ) (st0_2 t) fullShare Y2)
      ⊢ wp frame (wpE (defs₀ (F := F)) Variants.none c none) Set.univ (bodyAt0 t) (fun _ =>
          iprop((Pipeline.ΦA spec0 c : sProp 𝕄) ∗ (rdat m c).owesAt () t.castSucc
            ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X))) := by
  rw [PhiA_eq]
  unfold bodyAt0
  have hN : t.val < 64 := lt_of_lt_of_eq t.isLt (show cfg0.N = 64 from N_0)
  iintro ⟨⟨⟨%xs, HS⟩, Hg⟩, Ho, H0, H1, H2⟩
  by_cases h0 : t.val % 16 = 0
  · have h2 : ¬t.val % 16 = 15 := by omega
    iapply (run_first (F := F) c (grid0.coords t) _ _ _ _ _ _ scM (Memref.isWhole_whole _) ((hcond0 t).mpr h0) (fun h => h2 ((hcond2 t).mp h)) Y0 Y1 Y2 xs Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexists _; iexact HS
      iexact Hg
    isplitl [Ho]; · iexact Ho
    isplitl [H0]; · iexists _; isplitr; · ipureintro; trivial
                    iexact H0
    isplitl [H1]; · iexists _; isplitr; · ipureintro; trivial
                    iexact H1
    iexists _; isplitr; · ipureintro; trivial
    iexact H2
  · by_cases h2 : t.val % 16 = 15
    · iapply (run_last (F := F) c (grid0.coords t) _ _ _ _ _ _ scM (Memref.isWhole_whole _) (fun h => h0 ((hcond0 t).mp h)) ((hcond2 t).mpr h2) Y0 Y1 Y2 xs Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexists _; iexact HS
        iexact Hg
      isplitl [Ho]; · iexact Ho
      isplitl [H0]; · iexists _; isplitr; · ipureintro; trivial
                      iexact H0
      isplitl [H1]; · iexists _; isplitr; · ipureintro; trivial
                      iexact H1
      iexists _; isplitr; · ipureintro; trivial
      iexact H2
    · iapply (run_mid (F := F) c (grid0.coords t) _ _ _ _ _ _ scM (Memref.isWhole_whole _) (fun h => h0 ((hcond0 t).mp h)) (fun h => h2 ((hcond2 t).mp h)) Y0 Y1 Y2 xs Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexists _; iexact HS
        iexact Hg
      isplitl [Ho]; · iexact Ho
      isplitl [H0]; · iexists _; isplitr; · ipureintro; trivial
                      iexact H0
      isplitl [H1]; · iexists _; isplitr; · ipureintro; trivial
                      iexact H1
      iexists _; isplitr; · ipureintro; trivial
      iexact H2

/-- The library's body obligation for the relational data. -/
theorem body_obligation (c : Dev nD) : (rdat (F := F) m c).BodyObligation (defs₀ (F := F)) Variants.none () Set.univ := fun t Y _ => by
  rw [bigSep_W0, bigSep_W0]
  exact sound_body m c t (Y 0) (Y 1) (Y 2)

/-- The buffers the host line after the region writes: the reshaped result. -/
abbrev tailWrites : Finset (Ref sig .tc) := {main_v3}

theorem sfx_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]; by_contra hne; exact StableHlo.devRef_ne_of_ne hne hb

set_option backward.isDefEq.respectTransparency.types false in
/-- The run: every weakly fair execution of @main terminates, nothing faulting; every buffer that bypasses the region and
    that the last host line does not write ends at its contents at the region's entry. -/
theorem run_main : θ_run defs (onTc (τ := τ) (main (F := F))) (s₀ m ρ)
    (RDat.FramePostR cfg0 (rdat m) tailWrites (V m)) :=
  RDat.θ_run_frame_around_T_track cfgs (0 : Fin 1) launch0 defs₀ Variants.none (rdat m) tailWrites m ρ main
    (hbody := body_obligation m) (hshare := fun c w => by unfold RDat.share; split <;> rfl)
    (howed := fun _ _ => rfl) (V₀ := V0 m) (opss := [hostOps1]) (hsub := sfx_sub) (hfresh := sfx_fresh) (hkeep := sfx_keeps)
    (hT := sfx_writes) (hmain := hmain m Variants.none) (hA := fun _ _ => rfl)
    (hin := fun _ => BI.Entails.refl _) (hout := fun _ => BI.Entails.refl _)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_main m ρ)

end Cert.KernelIdeal.FrameR

end
-- ==== Proof.Spec.lean ====
/-
  The mathematics both programs compute, over the extended reals.

  `X : [64, 50, 30000]` and `W : [30000, 300]`; the result at `(b, s, q)` is `∑ v < 30000, X (b, s, v) · W (v, q)`
  (`prod`). The kernel flattens the two leading axes of `X` (row `R = 50 b + s` of 3200), extends `W` by 720 zero
  rows to 30720 = 16 · 1920, and adds up sixteen partial products over column blocks of 1920. For that reading the
  two operands are taken as total functions of natural numbers, zero outside their arrays (`rowsOf`, `padOf`): the
  zero rows of the extended `W` are then `padOf`'s own zeros, and a product whose right factor is such a zero is
  zero WHATEVER the left factor is (`x * 0 = 0` for every extended real, the infinities included).
-/
import Idealize.ShloMosaic.PureOps.Ideal
import Idealize.ShloMosaic.Lib.ValueIdx

noncomputable section

namespace Cert.Embed

open Idealize.ShloMosaic Idealize.ShloMosaic.ValueIdx

abbrev SX : Shape := ⟨3, ![64, 50, 30000]⟩
abbrev SW : Shape := ⟨2, ![30000, 300]⟩
abbrev SO : Shape := ⟨3, ![64, 50, 300]⟩

/-- The product, entry by entry. -/
def prod (X : SX.Idx → EReal) (W : SW.Idx → EReal) : SO.Idx → EReal :=
  fun i => ∑ v : Fin 30000, X (ix3 (n0 := 64) (n1 := 50) ⟨(i 0).val, (i 0).isLt⟩ ⟨(i 1).val, (i 1).isLt⟩ v) * W (ix2 (n1 := 300) v ⟨(i 2).val, (i 2).isLt⟩)

/-- `X` with its two leading axes flattened — row `R = 50 b + s` — as a total function, zero outside the array. -/
def rowsOf (X : SX.Idx → EReal) (R v : ℕ) : EReal :=
  if h : R < 3200 ∧ v < 30000 then
    X (ix3 (n0 := 64) (n1 := 50) ⟨R / 50, by omega⟩ ⟨R % 50, Nat.mod_lt _ (by norm_num)⟩ ⟨v, h.2⟩)
  else 0

/-- `W` as a total function, zero outside the array: in particular on the padding rows 30000 … 30719. -/
def padOf (W : SW.Idx → EReal) (v q : ℕ) : EReal :=
  if h : v < 30000 ∧ q < 300 then W (ix2 ⟨v, h.1⟩ ⟨q, h.2⟩) else 0

/-- The sum of the first `n` column blocks' partial products at row `R`, column `q`. -/
def partialSum (X : SX.Idx → EReal) (W : SW.Idx → EReal) (R q n : ℕ) : EReal :=
  ∑ kb ∈ Finset.range n, ∑ k ∈ Finset.range 1920, rowsOf X R (kb * 1920 + k) * padOf W (kb * 1920 + k) q

theorem partialSum_zero (X : SX.Idx → EReal) (W : SW.Idx → EReal) (R q : ℕ) : partialSum X W R q 0 = 0 := by
  unfold partialSum; rw [Finset.range_zero, Finset.sum_empty]

theorem partialSum_succ (X : SX.Idx → EReal) (W : SW.Idx → EReal) (R q n : ℕ) :
    partialSum X W R q (n + 1)
      = partialSum X W R q n + ∑ k ∈ Finset.range 1920, rowsOf X R (n * 1920 + k) * padOf W (n * 1920 + k) q := by
  unfold partialSum; rw [Finset.sum_range_succ]

/-- `n` consecutive blocks of `m` terms each are the first `n * m` terms. -/
private theorem sum_blocks (f : ℕ → EReal) (m n : ℕ) :
    ∑ kb ∈ Finset.range n, ∑ k ∈ Finset.range m, f (kb * m + k) = ∑ v ∈ Finset.range (n * m), f v := by
  induction n with
  | zero => rw [Finset.range_zero, Finset.sum_empty, Nat.zero_mul, Finset.range_zero, Finset.sum_empty]
  | succ n ih => rw [Finset.sum_range_succ, ih, Nat.succ_mul, Finset.sum_range_add]

/-- Inside the array, row `50 b + s` of the flattened operand is row `(b, s)` of `X`. -/
private theorem rowsOf_inside (X : SX.Idx → EReal) (b : Fin 64) (s : Fin 50) (v : Fin 30000) :
    rowsOf X (50 * b.val + s.val) v.val = X (ix3 b s v) := by
  have hb := b.isLt
  have hs := s.isLt
  unfold rowsOf
  rw [dif_pos ⟨by omega, v.isLt⟩]
  refine congrArg X (funext fun a => Fin.ext ?_)
  match a with
  | ⟨0, _⟩ => show (50 * b.val + s.val) / 50 = b.val; omega
  | ⟨1, _⟩ => show (50 * b.val + s.val) % 50 = s.val; omega
  | ⟨2, _⟩ => rfl

/-- Inside the array, the extended right operand is `W`. -/
private theorem padOf_inside (W : SW.Idx → EReal) (v : Fin 30000) (q : Fin 300) :
    padOf W v.val q.val = W (ix2 v q) := by
  unfold padOf
  rw [dif_pos ⟨v.isLt, q.isLt⟩]

/-- On the 720 padding rows the extended right operand is zero. -/
private theorem padOf_padding (W : SW.Idx → EReal) (x q : ℕ) : padOf W (30000 + x) q = 0 := by
  unfold padOf
  rw [dif_neg (by omega)]

/-- All sixteen blocks make up the product: the 720 columns past 30000 contribute zeros. -/
theorem partialSum_sixteen (X : SX.Idx → EReal) (W : SW.Idx → EReal) (b : Fin 64) (s : Fin 50) (q : Fin 300) :
    partialSum X W (50 * b.val + s.val) q.val 16 = prod X W (ix3 b s q) := by
  unfold partialSum
  refine (sum_blocks (fun v => rowsOf X (50 * b.val + s.val) v * padOf W v q.val) 1920 16).trans ?_
  rw [show (16 * 1920 : ℕ) = 30000 + 720 from rfl, Finset.sum_range_add]
  have hpad : ∑ x ∈ Finset.range 720,
      rowsOf X (50 * b.val + s.val) (30000 + x) * padOf W (30000 + x) q.val = 0 :=
    Finset.sum_eq_zero fun x _ => by rw [padOf_padding, mul_zero]
  rw [hpad, add_zero, Finset.sum_range]
  unfold prod
  refine Finset.sum_congr rfl fun v _ => ?_
  rw [rowsOf_inside, padOf_inside]

end Cert.Embed

end
-- ==== Proof.Blocks.lean ====
/-
  What the region's two input windows hold, at the ideal instance, in terms of the program's arguments.

  The left window reads the argument `X` with its two leading axes flattened (a host reshape before the region):
  its block at grid point t = 16 i + k holds rows 800 i … 800 i + 799 and columns 1920 k … 1920 k + 1919 — at k = 15
  only the first 1200 of those columns exist, and the staging buffer's last 720 columns hold whatever the filler `d`
  is. The right window reads `W` extended by 720 zero rows (a host pad before the region): its block at t holds rows
  1920 k … 1920 k + 1919 of the extension, all 300 columns.
-/
import proofs.«167342_j17918603559083_1_alg».proof.Proof.Gen.KernelIdeal.Frame
import proofs.«167342_j17918603559083_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KernelIdeal.Blocks

open Cert.KernelIdeal Cert.KernelIdeal.Gen Cert.Embed
open Idealize.ShloMosaic Idealize.ShloMosaic.TcCoe Idealize.ShloMosaic.ValueIdx Idealize.SL.Sem

variable (m : (ℓ : Loc nD τ sig) → Buf (Elt Ideal) ℓ)

/-- The two arguments on core `c`. -/
abbrev Xarg (c : Dev nD) : SX.Idx → EReal := m ((c : Thread nD τ).loc main_arg0)
abbrev Warg (c : Dev nD) : SW.Idx → EReal := m ((c : Thread nD τ).loc main_arg1)

/-- The left window's staging contents at point `t` with the part past the array's end zero-filled. -/
def lhsBlk (c : Dev nD) (t : Fin cfg0.N) : Vec Ideal S800x1920 .f32 :=
  win0_0.fill (grid0.coords t) (fun _ => (0 : EReal)) (iblk m c 0 t)

/-- The right window's block at point `t`. -/
def rhsBlk (c : Dev nD) (t : Fin cfg0.N) : Vec Ideal S1920x300 .f32 := iblk m c 1 t

/-! ## The two arrays as the region finds them, read at an index; the windows' index maps over the grid -/

/-- The left window's array when the region starts: the argument X with its two leading axes flattened. -/
private theorem V_v1 (c : Dev nD) : (V m c main_v1 : S3200x30000.Idx → EReal)
    = shapeCast S3200x30000 (Xarg m c) shapeCasts_S64x50x30000_S3200x30000 := by
  dsimp only [V, V0]
  simp only [hostOps0, hostOps0_1, hostOps0_2, List.flatten_cons, List.flatten_nil, List.append_nil, List.cons_append, List.nil_append]
  after_results
  rfl

/-- The right window's array when the region starts: the argument W extended by 720 rows of the integer zero read as a real. -/
private theorem V_v0 (c : Dev nD) : (V m c main_v0 : S30720x300.Idx → EReal)
    = pad S30720x300 ![0, 0] ![720, 0] ![0, 0] (Warg m c) (sitofp (F := Ideal) .f32 (constantI S_ 32 0#32)) pads_S30000x300_S30720x300_07200_000 h_S_ := by
  dsimp only [V, V0]
  simp only [hostOps0, hostOps0_1, hostOps0_2, List.flatten_cons, List.flatten_nil, List.append_nil, List.cons_append, List.nil_append]
  after_results
  rfl

/-- The flattening read at an index: row R of 3200 is row (R / 50, R % 50) of 64 x 50. -/
private theorem reshape_apply (X : SX.Idx → EReal) (R : Fin 3200) (v : Fin 30000) :
    shapeCast S3200x30000 X shapeCasts_S64x50x30000_S3200x30000 (ix2 R v) = rowsOf X R.val v.val := by
  unfold rowsOf
  rw [dif_pos ⟨R.isLt, v.isLt⟩]
  refine shapeCast_apply X _ (ix2 R v) _ ?_
  rw [Shape.rowMajor_val_three, Shape.rowMajor_val_two]
  show ((R.val / 50) * 50 + R.val % 50) * 30000 + v.val = R.val * 30000 + v.val
  have := Nat.div_add_mod R.val 50
  omega

/-- The extension read at an index: W on the first 30000 rows, zero on the 720 added ones. -/
private theorem pad_apply (W : SW.Idx → EReal) (v : Fin 30720) (q : Fin 300) :
    pad S30720x300 ![0, 0] ![720, 0] ![0, 0] W (sitofp (F := Ideal) .f32 (constantI S_ 32 0#32)) pads_S30000x300_S30720x300_07200_000 h_S_ (ix2 v q)
      = padOf W v.val q.val := by
  unfold padOf
  by_cases hv : v.val < 30000
  · rw [dif_pos ⟨hv, q.isLt⟩]
    refine pad_apply_of_inside _ _ _ W _ _ _ (ix2 v q) (ix2 ⟨v.val, hv⟩ ⟨q.val, q.isLt⟩) ?_
    intro a
    match a with
    | ⟨0, _⟩ => show v.val = 0 + v.val * (0 + 1); omega
    | ⟨1, _⟩ => show q.val = 0 + q.val * (0 + 1); omega
  · rw [dif_neg (fun h => hv h.1)]
    rw [pad_apply_of_not_inside _ _ _ W _ _ _ (ix2 v q) (0 : Fin 2) ?_]
    · -- the padding value: the integer zero read as a real
      show Scalar.sitofp (F := Ideal) .f32 (0#32 : BitVec 32) = 0
      rw [Ideal.scalar_sitofp_def]
      simp
    · show ¬(0 ≤ v.val ∧ (v.val - 0) % (0 + 1) = 0 ∧ (v.val - 0) / (0 + 1) < 30000)
      omega

/-- Over the 4 x 16 grid, point t has coordinates (t / 16, t % 16): the left window's block index is (t / 16, t % 16), -/
private theorem idx0 : ∀ t : Fin cfg0.N, win0_0.index t 0 = t.val / 16 ∧ win0_0.index t 1 = t.val % 16 :=
  (by decide +kernel : ∀ t : Fin grid0.N, _)
/-- the right window's is (t % 16, 0), -/
private theorem idx1 : ∀ t : Fin cfg0.N, win0_1.index t 0 = t.val % 16 ∧ win0_1.index t 1 = 0 :=
  (by decide +kernel : ∀ t : Fin grid0.N, _)
/-- the left fetch moves all 800 rows and, of the 1920 columns, the 1200 inside the array in the last column block (30000 = 15 * 1920 + 1200), -/
private theorem xs0 : ∀ t : Fin cfg0.N, win0_0.xsize (grid0.coords t) 0 = 800
    ∧ win0_0.xsize (grid0.coords t) 1 = if t.val % 16 = 15 then 1200 else 1920 :=
  (by decide +kernel : ∀ t : Fin grid0.N, _)
/-- and the grid has 64 points. -/
private theorem tlt : ∀ t : Fin cfg0.N, t.val < 64 := (by decide +kernel : ∀ t : Fin grid0.N, _)

/-- An element of the right window's block at point t, in the array. -/
private theorem iblk1_apply (c : Dev nD) (t : Fin cfg0.N) (k : Fin 1920) (q : Fin 300) (v : Fin 30720)
    (hv : v.val = t.val % 16 * 1920 + k.val) :
    (iblk m c 1 t : S1920x300.Idx → EReal) (ix2 k q) = (V m c main_v0 : S30720x300.Idx → EReal) (ix2 v q) := by
  show (V m c main_v0 : S30720x300.Idx → EReal) (((cfg0.win 1).blk t).view.emb (ix2 k q)) = _
  refine congrArg _ (funext fun a => Fin.ext ?_)
  match a with
  | ⟨0, _⟩ =>
    show ((win0_1.rect t).emb (ix2 k q) 0 : Nat) = v.val
    rw [win0_1.rect_emb_val t (ix2 k q) 0, (idx1 t).1, hv]
    rfl
  | ⟨1, _⟩ =>
    show ((win0_1.rect t).emb (ix2 k q) 1 : Nat) = q.val
    rw [win0_1.rect_emb_val t (ix2 k q) 1, (idx1 t).2]
    show 0 * 300 + q.val = q.val
    omega

/-- An element of the left window's block at point t, in the array. -/
private theorem iblk0_apply (c : Dev nD) (t : Fin cfg0.N) (y : (win0_0.xblock (grid0.coords t)).Idx) (R : Fin 3200) (v : Fin 30000)
    (hR : R.val = t.val / 16 * 800 + (y 0).val) (hv : v.val = t.val % 16 * 1920 + (y 1).val) :
    (iblk m c 0 t y : EReal) = (V m c main_v1 : S3200x30000.Idx → EReal) (ix2 R v) := by
  show (V m c main_v1 : S3200x30000.Idx → EReal) (((cfg0.win 0).blk t).view.emb y) = _
  refine congrArg _ (funext fun a => Fin.ext ?_)
  match a with
  | ⟨0, _⟩ =>
    show ((win0_0.rect t).emb y 0 : Nat) = R.val
    rw [win0_0.rect_emb_val t y 0, (idx0 t).1, hR]
    rfl
  | ⟨1, _⟩ =>
    show ((win0_0.rect t).emb y 1 : Nat) = v.val
    rw [win0_0.rect_emb_val t y 1, (idx0 t).2, hv]
    rfl

/-! ## The blocks -/

/-- The left staging buffer after the fetch at `t`, whatever filled it before (`d`): inside the array the flattened
    argument, past its end `d`. -/
theorem lhs_fill_apply (c : Dev nD) (t : Fin cfg0.N) (d : S800x1920.Idx → EReal) (r : Fin 800) (k : Fin 1920) :
    win0_0.fill (grid0.coords t) d (iblk m c 0 t) (ix2 r k)
      = if t.val % 16 * 1920 + k.val < 30000 then rowsOf (Xarg m c) (t.val / 16 * 800 + r.val) (t.val % 16 * 1920 + k.val)
        else d (ix2 r k) := by
  have ht := tlt t
  have hx := xs0 t
  have hmod : t.val % 16 < 16 := Nat.mod_lt _ (by norm_num)
  have hdiv : t.val / 16 < 4 := by omega
  by_cases hm : win0_0.moved (grid0.coords t) (ix2 r k) = true
  · -- the entry is fetched: its column lies inside the array
    have h1 : k.val < win0_0.xsize (grid0.coords t) 1 := (win0_0.moved_iff (grid0.coords t) (ix2 r k)).mp hm 1
    rw [hx.2] at h1
    have hlt : t.val % 16 * 1920 + k.val < 30000 := by split_ifs at h1 <;> omega
    have hR : t.val / 16 * 800 + r.val < 3200 := by have := r.isLt; omega
    rw [if_pos hlt]
    unfold Pipeline.Window.fill
    rw [dif_pos hm]
    refine (iblk0_apply m c t _ ⟨_, hR⟩ ⟨_, hlt⟩ rfl rfl).trans ?_
    rw [V_v1 m c]
    exact reshape_apply _ _ _
  · -- the entry is not fetched: its column is past the array's end
    have hge : ¬(t.val % 16 * 1920 + k.val < 30000) := by
      intro hlt
      apply hm
      rw [win0_0.moved_iff]
      intro a
      match a with
      | ⟨0, _⟩ => show r.val < win0_0.xsize (grid0.coords t) 0; rw [hx.1]; exact r.isLt
      | ⟨1, _⟩ => show k.val < win0_0.xsize (grid0.coords t) 1; rw [hx.2]; have := k.isLt; split_ifs <;> omega
    rw [win0_0.fill_of_not_moved _ _ _ hm, if_neg hge]

/-- With the zero filler it is the flattened argument as a total function. -/
theorem lhsBlk_apply (c : Dev nD) (t : Fin cfg0.N) (r : Fin 800) (k : Fin 1920) :
    lhsBlk m c t (ix2 r k) = rowsOf (Xarg m c) (t.val / 16 * 800 + r.val) (t.val % 16 * 1920 + k.val) := by
  unfold lhsBlk
  rw [lhs_fill_apply]
  by_cases h : t.val % 16 * 1920 + k.val < 30000
  · rw [if_pos h]
  · -- past column 30000 the total function is zero by its definition
    rw [if_neg h]
    unfold rowsOf
    rw [dif_neg (fun hh => h hh.2)]

/-- The right block is the zero-extended `W`. -/
theorem rhsBlk_apply (c : Dev nD) (t : Fin cfg0.N) (k : Fin 1920) (q : Fin 300) :
    rhsBlk m c t (ix2 k q) = padOf (Warg m c) (t.val % 16 * 1920 + k.val) q.val := by
  have hmod : t.val % 16 < 16 := Nat.mod_lt _ (by norm_num)
  have hlt : t.val % 16 * 1920 + k.val < 30720 := by have := k.isLt; omega
  unfold rhsBlk
  refine (iblk1_apply m c t k q ⟨_, hlt⟩ rfl).trans ?_
  rw [V_v0 m c]
  exact pad_apply _ _ _

end Cert.KernelIdeal.Blocks

end
-- ==== Proof.PayValue.lean ====
/-
  The body's two payloads at the ideal instance, entry by entry: the reset payload is the zero block, and the
  accumulation payload at (r, q) is the accumulator's entry there plus the sum over the 1920 columns k of the block
  of (left block at (r, k)) times (right block at (k, q)) — the change of float format before the product is the
  identity on extended reals, and the matrix unit's product into a zero accumulator is the plain contraction.
-/
import proofs.«167342_j17918603559083_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx

/-- The reset payload is zero everywhere. -/
theorem pay1_apply (j : S800x300.Idx) : k0_pay1 (F := Ideal) j = (0 : EReal) := by
  -- a cast to the same shape is the identity, a splat read at an index is its scalar, and the scalar's bits are zero
  unfold k0_pay1
  rw [shapeCast_self, broadcast_apply]
  exact Ideal.ofBits_zero_f32

/-- Axis 0 of the left operand's index is the output row. -/
private theorem lhs_dot_0 (j : S800x300.Idx) (c : dot_S800x1920_S1920x300_S800x300_1_0_0_1_n_n.contr.Idx) :
    (dot_S800x1920_S1920x300_S800x300_1_0_0_1_n_n.lhsIdx j c 0).val = (j 0).val := by
  unfold DotDims.lhsIdx
  rw [dif_neg (show ¬(0 : Fin S800x1920.rank) ∈ dot_S800x1920_S1920x300_S800x300_1_0_0_1_n_n.lhsBatch by decide),
    dif_pos (show (0 : Fin S800x1920.rank) ∈ dot_S800x1920_S1920x300_S800x300_1_0_0_1_n_n.lhsNonContracting by decide)]
  rfl

/-- Axis 1 of the left operand's index is the contracted position. -/
private theorem lhs_dot_1 (j : S800x300.Idx) (c : dot_S800x1920_S1920x300_S800x300_1_0_0_1_n_n.contr.Idx) :
    (dot_S800x1920_S1920x300_S800x300_1_0_0_1_n_n.lhsIdx j c 1).val = (c ⟨0, by decide⟩).val :=
  dot_S800x1920_S1920x300_S800x300_1_0_0_1_n_n.lhsIdx_val_of_single rfl j c

/-- Axis 0 of the right operand's index is the contracted position. -/
private theorem rhs_dot_0 (j : S800x300.Idx) (c : dot_S800x1920_S1920x300_S800x300_1_0_0_1_n_n.contr.Idx) :
    (dot_S800x1920_S1920x300_S800x300_1_0_0_1_n_n.rhsIdx j c 0).val = (c ⟨0, by decide⟩).val :=
  dot_S800x1920_S1920x300_S800x300_1_0_0_1_n_n.rhsIdx_val_of_single rfl j c

/-- Axis 1 of the right operand's index is the output column. -/
private theorem rhs_dot_1 (j : S800x300.Idx) (c : dot_S800x1920_S1920x300_S800x300_1_0_0_1_n_n.contr.Idx) :
    (dot_S800x1920_S1920x300_S800x300_1_0_0_1_n_n.rhsIdx j c 1).val = (j 1).val := by
  unfold DotDims.rhsIdx
  rw [dif_neg (show ¬(1 : Fin S1920x300.rank) ∈ dot_S800x1920_S1920x300_S800x300_1_0_0_1_n_n.rhsBatch by decide),
    dif_pos (show (1 : Fin S1920x300.rank) ∈ dot_S800x1920_S1920x300_S800x300_1_0_0_1_n_n.rhsNonContracting by decide)]
  rfl

/-- The accumulation payload at an entry. -/
theorem pay2_apply (x0 : Vec Ideal S800x1920 .f32) (x1 : Vec Ideal S1920x300 .f32) (a : Vec Ideal S800x300 .f32)
    (r : Fin 800) (q : Fin 300) :
    k0_pay2 (F := Ideal) x0 x1 a (ix2 r q) = a (ix2 r q) + ∑ k : Fin 1920, x0 (ix2 r k) * x1 (ix2 k q) := by
  -- the three same-shape casts are the identity and the sum of blocks reads entrywise
  unfold k0_pay2
  rw [shapeCast_self, shapeCast_self, shapeCast_self, addf_apply]
  refine congrArg (a (ix2 r q) + ·) ?_
  -- into a zero accumulator the product is the contraction over the record's own index type
  simp only [matmul]
  rw [Ideal.matmul_constant_zero_apply,
    ← Equiv.sum_comp (ValueIdx.contrEquiv1 dot_S800x1920_S1920x300_S800x300_1_0_0_1_n_n 1920 rfl rfl).symm]
  refine Finset.sum_congr rfl fun k _ => ?_
  have hk := ValueIdx.contrEquiv1_symm_val dot_S800x1920_S1920x300_S800x300_1_0_0_1_n_n 1920 rfl rfl k
  -- at output (r, q) and contracted position k the operands are read at (r, k) and (k, q)
  have el : dot_S800x1920_S1920x300_S800x300_1_0_0_1_n_n.lhsIdx (ix2 r q)
      ((ValueIdx.contrEquiv1 dot_S800x1920_S1920x300_S800x300_1_0_0_1_n_n 1920 rfl rfl).symm k) = ix2 r k :=
    funext fun b => Fin.ext (by
      match b with
      | ⟨0, _⟩ => exact lhs_dot_0 _ _
      | ⟨1, _⟩ => exact (lhs_dot_1 _ _).trans hk)
  have er : dot_S800x1920_S1920x300_S800x300_1_0_0_1_n_n.rhsIdx (ix2 r q)
      ((ValueIdx.contrEquiv1 dot_S800x1920_S1920x300_S800x300_1_0_0_1_n_n 1920 rfl rfl).symm k) = ix2 k q :=
    funext fun b => Fin.ext (by
      match b with
      | ⟨0, _⟩ => exact (rhs_dot_0 _ _).trans hk
      | ⟨1, _⟩ => exact rhs_dot_1 _ _)
  -- the change of float format is the identity on extended reals
  rw [truncf_apply, truncf_apply, el, er]

end Cert.KernelIdeal.Pay

end
-- ==== Proof.Accum.lean ====
/-
  The accumulator scratch after each grid point, at the ideal instance.

  Point t = 16 i + k of the 4 x 16 grid handles row block i and column block k. The scratch after point t is defined
  by the recursion the body performs (`accAt`): at k = 0 the zero block plus the blocks' product, otherwise what the
  point before left plus the blocks' product — with the left block's overhanging tail ZERO-FILLED, a choice the value
  does not depend on (`pay2_fill_indep`): wherever the left staging buffer holds words nothing names, the right block
  holds a padding zero, and every extended real times zero is zero. Entry by entry the scratch after point t is the
  sum of the first k + 1 column blocks' partial products (`accAt_apply`).
-/
import proofs.«167342_j17918603559083_1_alg».proof.Proof.Blocks
import proofs.«167342_j17918603559083_1_alg».proof.Proof.PayValue

set_option maxRecDepth 16384

noncomputable section

namespace Cert.KernelIdeal.Accum

open Cert.KernelIdeal Cert.KernelIdeal.Gen Cert.Embed Cert.KernelIdeal.Blocks Cert.KernelIdeal.Pay
open Idealize.ShloMosaic Idealize.ShloMosaic.TcCoe Idealize.ShloMosaic.ValueIdx Idealize.SL.Sem

variable (m : (ℓ : Loc nD τ sig) → Buf (Elt Ideal) ℓ)

/-- The scratch after the body at point `n`. -/
def accAt (c : Dev nD) : (n : ℕ) → n < cfg0.N → Vec Ideal S800x300 .f32
  | 0, h => k0_pay2 (F := Ideal) (lhsBlk m c ⟨0, h⟩) (rhsBlk m c ⟨0, h⟩) (k0_pay1 (F := Ideal))
  | n + 1, h =>
    if (n + 1) % 16 = 0 then k0_pay2 (F := Ideal) (lhsBlk m c ⟨n + 1, h⟩) (rhsBlk m c ⟨n + 1, h⟩) (k0_pay1 (F := Ideal))
    else k0_pay2 (F := Ideal) (lhsBlk m c ⟨n + 1, h⟩) (rhsBlk m c ⟨n + 1, h⟩) (accAt c n (Nat.lt_of_succ_lt h))

/-- At the first column block of a row block the recursion restarts from zero. -/
theorem accAt_first (c : Dev nD) (t : Fin cfg0.N) (h0 : t.val % 16 = 0) :
    accAt m c t.val t.isLt = k0_pay2 (F := Ideal) (lhsBlk m c t) (rhsBlk m c t) (k0_pay1 (F := Ideal)) := by
  obtain ⟨n, hn⟩ := t
  cases n with
  | zero => exact rfl
  | succ n => exact if_pos h0

/-- At every other column block it continues from the point before. -/
theorem accAt_next (c : Dev nD) (t : Fin cfg0.N) (h0 : ¬t.val % 16 = 0) :
    accAt m c t.val t.isLt
      = k0_pay2 (F := Ideal) (lhsBlk m c t) (rhsBlk m c t) (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The accumulation payload does not see what fills the left staging buffer past the array's end. -/
theorem pay2_fill_indep (c : Dev nD) (t : Fin cfg0.N) (d : S800x1920.Idx → EReal) (a : Vec Ideal S800x300 .f32) :
    k0_pay2 (F := Ideal) (win0_0.fill (grid0.coords t) d (iblk m c 0 t)) (rhsBlk m c t) a
      = k0_pay2 (F := Ideal) (lhsBlk m c t) (rhsBlk m c t) a := by
  funext j
  obtain ⟨r, q, rfl⟩ : ∃ (r : Fin 800) (q : Fin 300), j = ix2 r q := ⟨j 0, j 1, eq_ix2 j⟩
  rw [pay2_apply, pay2_apply]
  congr 1
  refine Finset.sum_congr rfl (fun k _ => ?_)
  unfold lhsBlk
  rw [lhs_fill_apply, lhs_fill_apply, rhsBlk_apply]
  by_cases h : t.val % 16 * 1920 + k.val < 30000
  · rw [if_pos h, if_pos h]
  · -- past the array's end the right factor is a padding zero, and every extended real times zero is zero
    have hz : padOf (Warg m c) (t.val % 16 * 1920 + k.val) q.val = 0 := by
      unfold padOf; exact dif_neg (fun hh => h hh.1)
    rw [if_neg h, if_neg h, hz, mul_zero, mul_zero]

/-- The blocks' product at an entry, as a sum over the 1920 columns of column block `t % 16`. -/
private theorem blockSum (c : Dev nD) (t : Fin cfg0.N) (r : Fin 800) (q : Fin 300) :
    ∑ k : Fin 1920, lhsBlk m c t (ix2 r k) * rhsBlk m c t (ix2 k q)
      = ∑ k ∈ Finset.range 1920, rowsOf (Xarg m c) (t.val / 16 * 800 + r.val) (t.val % 16 * 1920 + k)
          * padOf (Warg m c) (t.val % 16 * 1920 + k) q.val := by
  rw [Finset.sum_range]
  refine Finset.sum_congr rfl (fun k _ => ?_)
  rw [lhsBlk_apply, rhsBlk_apply]

/-- The scratch after point `t`, entry by entry: the first `t % 16 + 1` column blocks' partial products. -/
theorem accAt_apply (c : Dev nD) (t : Fin cfg0.N) (r : Fin 800) (q : Fin 300) :
    accAt m c t.val t.isLt (ix2 r q)
      = partialSum (Xarg m c) (Warg m c) (t.val / 16 * 800 + r.val) q.val (t.val % 16 + 1) := by
  have key : ∀ (n : ℕ) (hn : n < cfg0.N) (r : Fin 800) (q : Fin 300),
      accAt m c n hn (ix2 r q)
        = partialSum (Xarg m c) (Warg m c) (n / 16 * 800 + r.val) q.val (n % 16 + 1) := by
    intro n
    induction n using Nat.strong_induction_on with
    | _ n ih =>
      intro hn r q
      by_cases h0 : n % 16 = 0
      · -- first column block of a row block: zero plus this block's product
        rw [show accAt m c n hn = _ from accAt_first m c ⟨n, hn⟩ h0, pay2_apply, pay1_apply, zero_add, blockSum,
          partialSum_succ]
        have hz : partialSum (Xarg m c) (Warg m c) (n / 16 * 800 + r.val) q.val (n % 16) = 0 := by
          rw [h0, partialSum_zero]
        rw [hz, zero_add]
      · -- a later column block: what the point before left (same row block, one block fewer) plus this block's product
        rw [show accAt m c n hn = _ from accAt_next m c ⟨n, hn⟩ h0, pay2_apply, blockSum, partialSum_succ]
        congr 1
        refine (ih (n - 1) (by omega) _ r q).trans ?_
        rw [show (n - 1) / 16 = n / 16 by omega, show (n - 1) % 16 + 1 = n % 16 by omega]
  exact key t.val t.isLt r q

end Cert.KernelIdeal.Accum

end
-- ==== Proof.ExactIdeal.lean ====
/-
  The idealized program's run with every staging buffer and the accumulator NAMED: the proof data, the body
  obligation and the frame run whose post has the result array at what the library computes from the data.

  After the body at point t the left staging buffer holds its block (stated on the part inside the array only: the
  window is cut at the array's end), the right one its block, the accumulator scratch `accAt t`; the result's staging
  buffer receives the accumulator at the last column block (t % 16 = 15), where it is written back, and is left as
  found elsewhere. The invariant carries the scratch at `accAt` of the point before.
-/
import proofs.«167342_j17918603559083_1_alg».proof.Proof.BodyRunIdeal
import proofs.«167342_j17918603559083_1_alg».proof.Proof.Accum

set_option maxRecDepth 16384

noncomputable section

namespace Cert.KernelIdeal.Exact

open Cert.KernelIdeal Cert.KernelIdeal.Gen Cert.KernelIdeal.Body Cert.KernelIdeal.Blocks Cert.KernelIdeal.Accum
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The scratch accumulator as a memref. -/
abbrev scM : Memref sig .tc .vmem S800x300 .f32 := Memref.whole cc0_scratch0

/-- The region invariant before position `n`: the class's before the first point (the scratch at anything), afterwards
    the scratch at what the point before left in it. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => lhsBlk m c t
    | ⟨1, _⟩ => rhsBlk m c t
    | ⟨2, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = lhsBlk m c t := by dsimp only [dats]
theorem after_1 (c : Dev nD) (t : Fin cfg0.N) : (dats m 0 c).after 1 t = rhsBlk m c t := by dsimp only [dats]
theorem after_2 (c : Dev nD) (t : Fin cfg0.N) : (dats m 0 c).after 2 t = accAt m c t.val t.isLt := by dsimp only [dats]

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

theorem PhiS_castSucc (c : Dev nD) (t : Fin cfg0.N) :
    (dats m 0 c).Φ t.castSucc = PhiS m c t.val (Nat.le_of_lt t.isLt) := by
  dsimp only [dats]; simp only [Fin.coe_castSucc]

/-- The class invariant with the scratch as a memref owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The two conditions over the grid, in closed form. -/
theorem hcond0 : ∀ t : Fin cfg0.N, cond0 (grid0.coords t) ↔ t.val % 16 = 0 :=
  (by decide +kernel : ∀ t : Fin grid0.N, cond0 (grid0.coords t) ↔ t.val % 16 = 0)
theorem hcond2 : ∀ t : Fin cfg0.N, cond2 (grid0.coords t) ↔ t.val % 16 = 15 :=
  (by decide +kernel : ∀ t : Fin grid0.N, cond2 (grid0.coords t) ↔ t.val % 16 = 15)

/-- The result window is idle exactly away from the last column block, where it is not written back either. -/
theorem idle2 : ∀ t : Fin cfg0.N, ¬t.val % 16 = 15 → cfg0.idle 2 (grid0.coords t) = true :=
  (by decide +kernel : ∀ t : Fin grid0.N, ¬t.val % 16 = 15 → cfg0.idle 2 (grid0.coords t) = true)
theorem live2 : ∀ t : Fin cfg0.N, t.val % 16 = 15 → cfg0.idle 2 (grid0.coords t) = false :=
  (by decide +kernel : ∀ t : Fin grid0.N, t.val % 16 = 15 → cfg0.idle 2 (grid0.coords t) = false)
theorem noFlush2 (t : Fin cfg0.N) (h : ¬t.val % 16 = 15) : (cfg0.win 2).flush t = false := by
  cases hf : (cfg0.win 2).flush t
  · rfl
  · exact absurd ((flush0_2 t).mp hf) h

/-- The left staging buffer as the body finds it: just fetched — its block inside the array, `d` past its end. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]; try rfl

/-- The right staging buffer as the body finds it: its block. -/
theorem before_1 (c : Dev nD) (t : Fin cfg0.N) (d) : (dats m 0 c).before 1 t d = iblk m c 1 t :=
  before0_1_of m (dats m 0 c) (A_eq m c 1) (fun t => (after_1 m c t).trans rfl) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

/-- The left window is live and cut: its post is stated on the part inside the array. -/
theorem leaves_0 (c : Dev nD) (t : Fin cfg0.N) :
    (dats m 0 c).leaves 0 t = iprop(∃ d, owns (c : Thread nD τ) (st0_0 t) fullShare (win0_0.fill (grid0.coords t) d (iblk m c 0 t))) := by
  have e : win0_0.cut (grid0.coords t) ((dats m 0 c).after 0 t) = iblk m c 0 t := by
    rw [after_0]; unfold lhsBlk; exact win0_0.cut_fill _ _ _
  unfold Dat.leaves
  show iprop(∃ d, owns (c : Thread nD τ) (st0_0 t) fullShare (win0_0.fill (grid0.coords t) d (win0_0.cut (grid0.coords t) ((dats m 0 c).after 0 t)))) = _
  rw [e]

/-- The right window is live and whole. -/
theorem leaves_1 (c : Dev nD) (t : Fin cfg0.N) :
    (dats m 0 c).leaves 1 t = owns (c : Thread nD τ) (st0_1 t) fullShare (iblk m c 1 t) := by
  unfold Dat.leaves
  show owns (c : Thread nD τ) (st0_1 t) fullShare ((dats m 0 c).after 1 t) = _
  rw [after_1]; rfl

/-- The result window at the last column block: the accumulator. -/
theorem leaves_2_last (c : Dev nD) (t : Fin cfg0.N) (h : t.val % 16 = 15) :
    (dats m 0 c).leaves 2 t = owns (c : Thread nD τ) (st0_2 t) fullShare (accAt m c t.val t.isLt) := by
  unfold Dat.leaves; rw [live2 t h]
  show owns (c : Thread nD τ) (st0_2 t) fullShare ((dats m 0 c).after 2 t) = _
  rw [after_2]

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [leaves_0, leaves_1]
  have hN : t.val < 64 := lt_of_lt_of_eq t.isLt (show cfg0.N = 64 from N_0)
  by_cases h0 : t.val % 16 = 0
  · have h2 : ¬t.val % 16 = 15 := by omega
    rw [Dat.leaves_idle (dats m 0 c) 2 t (idle2 t h2) (noFlush2 t h2), accAt_first m c t h0]
    by_cases hz : t.val = 0
    · rw [PhiS_castSucc m c t, PhiS_zero m c _ _ hz, PhiA_eq]
      iintro ⟨⟨⟨%xs, HS⟩, Hg⟩, Ho, ⟨%d0, H0⟩, ⟨%d1, H1⟩, ⟨%d2, H2⟩⟩
      iapply (run_first (F := Ideal) c (grid0.coords t) _ _ _ _ _ _ scM (Memref.isWhole_whole _) ((hcond0 t).mpr h0) (fun h => h2 ((hcond2 t).mp h)) _ _ _ xs Set.univ _)
      isplitl [H0]; · iexact H0
      isplitl [H1]; · iexact H1
      isplitl [H2]; · iexact H2
      isplitl [HS]; · iexact HS
      iintro ⟨H0, H1, H2, HS⟩
      rw [← pay2_fill_indep m c t d0]; unfold rhsBlk
      isplitl [HS Hg]
      · isplitl [HS]; · iexact HS
        iexact Hg
      isplitl [Ho]; · iexact Ho
      isplitl [H0]; · iexists d0; iexact H0
      isplitl [H1]; · iexact H1
      iexists d2; iexact H2
    · rw [PhiS_castSucc m c t, PhiS_pos m c _ _ hz]
      iintro ⟨⟨HS, Hg⟩, Ho, ⟨%d0, H0⟩, ⟨%d1, H1⟩, ⟨%d2, H2⟩⟩
      iapply (run_first (F := Ideal) c (grid0.coords t) _ _ _ _ _ _ scM (Memref.isWhole_whole _) ((hcond0 t).mpr h0) (fun h => h2 ((hcond2 t).mp h)) _ _ _ _ Set.univ _)
      isplitl [H0]; · iexact H0
      isplitl [H1]; · iexact H1
      isplitl [H2]; · iexact H2
      isplitl [HS]; · iexact HS
      iintro ⟨H0, H1, H2, HS⟩
      rw [← pay2_fill_indep m c t d0]; unfold rhsBlk
      isplitl [HS Hg]
      · isplitl [HS]; · iexact HS
        iexact Hg
      isplitl [Ho]; · iexact Ho
      isplitl [H0]; · iexists d0; iexact H0
      isplitl [H1]; · iexact H1
      iexists d2; iexact H2
  · have hz : t.val ≠ 0 := fun h => h0 (by rw [h])
    rw [PhiS_castSucc m c t, PhiS_pos m c _ _ hz, accAt_next m c t h0]
    by_cases h2 : t.val % 16 = 15
    · rw [leaves_2_last m c t h2, accAt_next m c t h0]
      iintro ⟨⟨HS, Hg⟩, Ho, ⟨%d0, H0⟩, ⟨%d1, H1⟩, ⟨%d2, H2⟩⟩
      iapply (run_last (F := Ideal) c (grid0.coords t) _ _ _ _ _ _ scM (Memref.isWhole_whole _) (fun h => h0 ((hcond0 t).mp h)) ((hcond2 t).mpr h2) _ _ _ _ Set.univ _)
      isplitl [H0]; · iexact H0
      isplitl [H1]; · iexact H1
      isplitl [H2]; · iexact H2
      isplitl [HS]; · iexact HS
      iintro ⟨H0, H1, H2, HS⟩
      rw [← pay2_fill_indep m c t d0]; unfold rhsBlk
      isplitl [HS Hg]
      · isplitl [HS]; · iexact HS
        iexact Hg
      isplitl [Ho]; · iexact Ho
      isplitl [H0]; · iexists d0; iexact H0
      isplitl [H1]; · iexact H1
      iexact H2
    · rw [Dat.leaves_idle (dats m 0 c) 2 t (idle2 t h2) (noFlush2 t h2)]
      iintro ⟨⟨HS, Hg⟩, Ho, ⟨%d0, H0⟩, ⟨%d1, H1⟩, ⟨%d2, H2⟩⟩
      iapply (run_mid (F := Ideal) c (grid0.coords t) _ _ _ _ _ _ scM (Memref.isWhole_whole _) (fun h => h0 ((hcond0 t).mp h)) (fun h => h2 ((hcond2 t).mp h)) _ _ _ _ Set.univ _)
      isplitl [H0]; · iexact H0
      isplitl [H1]; · iexact H1
      isplitl [H2]; · iexact H2
      isplitl [HS]; · iexact HS
      iintro ⟨H0, H1, H2, HS⟩
      rw [← pay2_fill_indep m c t d0]; unfold rhsBlk
      isplitl [HS Hg]
      · isplitl [HS]; · iexact HS
        iexact Hg
      isplitl [Ho]; · iexact Ho
      isplitl [H0]; · iexists d0; iexact H0
      isplitl [H1]; · iexact H1
      iexists d2; iexact H2

/-- The library's body obligation, each buffer left as the cut windows have it described. -/
theorem body_obligation (c : Dev nD) : BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

set_option backward.isDefEq.respectTransparency.types false in
/-- The frame run of the idealized program over the named data. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Exact

end
-- ==== Proof.Final.lean ====
/-
  The idealized program's result. The result window is written back at the last column block of each of the four row
  blocks; what is written there is the accumulator after all sixteen column blocks, which entry by entry is the full
  product (`partialSum_sixteen`). The four blocks tile the [3200, 300] array, and the host reshape after the region lays
  its rows out as [64, 50, 300].
-/
import proofs.«167342_j17918603559083_1_alg».proof.Proof.ExactIdeal

set_option maxRecDepth 16384

noncomputable section

namespace Cert.KernelIdeal.Final

open Cert.KernelIdeal Cert.KernelIdeal.Gen Cert.Embed Cert.KernelIdeal.Blocks Cert.KernelIdeal.Accum Cert.KernelIdeal.Exact
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The flattened result: all sixteen column blocks' partial products. -/
def out2 (c : Dev nD) : S3200x300.Idx → EReal :=
  fun j => partialSum (Xarg m c) (Warg m c) (j 0).val (j 1).val 16

/-- The result window's block index at grid point t: the row block t / 16, and column block zero. -/
private theorem res_index : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- What a point at the last column block writes back is its block of the flattened result. -/
private theorem flushed_eq (c : Dev nD) (t : Fin cfg0.N) (ht : t.val % 16 = 15) :
    (dats m 0 c).flushed 2 t = ((cfg0.win 2).blk t).view.read (Elt Ideal) (out2 m c) := by
  show (cfg0.win 2).cut (grid0.coords t) ((dats m 0 c).after 2 t) = _
  rw [after_2]
  funext j
  obtain ⟨r, q, rfl⟩ : ∃ (r : Fin 800) (q : Fin 300), j = ix2 r q := ⟨j 0, j 1, eq_ix2 j⟩
  show accAt m c t.val t.isLt (ix2 r q) = out2 m c (((cfg0.win 2).blk t).view.emb (ix2 r q))
  rw [accAt_apply, ht]
  unfold out2
  obtain ⟨e0, e1⟩ := res_index t
  have h0 : ((((cfg0.win 2).blk t).view.emb (ix2 r q)) 0).val = t.val / 16 * 800 + r.val := by
    show win0_2.index t (0 : Fin 2) * 800 + 1 * r.val = _
    rw [e0]; omega
  have h1 : ((((cfg0.win 2).blk t).view.emb (ix2 r q)) 1).val = q.val := by
    show win0_2.index t (1 : Fin 2) * 300 + 1 * q.val = _
    rw [e1]; omega
  rw [h0, h1]

/-- An index of the flattened result lies in point t's block iff each coordinate is in the block's range. -/
private theorem mem_res_blk (t : Fin cfg0.N) (i : S3200x300.Idx) :
    i ∈ ((cfg0.win 2).blk t).view.set ↔ ∀ a : Fin 2, win0_2.index t a * S800x300.size a ≤ (i a).val ∧ (i a).val < win0_2.index t a * S800x300.size a + S800x300.size a := by
  show i ∈ ((View.whole main_v2).slice (win0_2.rect t)).set ↔ _
  rw [View.set_slice_whole, Rect.mem_set_unit]
  exact Iff.rfl

/-- Every index of the flattened result is written by the last column block's point of its row block. -/
private theorem res_cover (i : S3200x300.Idx) :
    ∃ t : Fin cfg0.N, (cfg0.win 2).flush t = true ∧ i ∈ ((cfg0.win 2).blk t).view.set := by
  have hi0 : (i 0).val < 3200 := (i 0).isLt
  have hi1 : (i 1).val < 300 := (i 1).isLt
  obtain ⟨t, ht⟩ : ∃ t : Fin cfg0.N, t.val = 16 * ((i 0).val / 800) + 15 :=
    ⟨⟨16 * ((i 0).val / 800) + 15, by rw [show cfg0.N = 64 from N_0]; omega⟩, rfl⟩
  refine ⟨t, (flush0_2 t).mpr (by omega), ?_⟩
  rw [mem_res_blk]
  obtain ⟨e0, e1⟩ := res_index t
  intro a
  match a with
  | ⟨0, _⟩ =>
    show win0_2.index t (0 : Fin 2) * 800 ≤ (i 0).val ∧ (i 0).val < win0_2.index t (0 : Fin 2) * 800 + 800
    rw [e0]; omega
  | ⟨1, _⟩ =>
    show win0_2.index t (1 : Fin 2) * 300 ≤ (i 1).val ∧ (i 1).val < win0_2.index t (1 : Fin 2) * 300 + 300
    rw [e1]; omega

/-- The result array after the region. -/
theorem out_final (c : Dev nD) : (dats m 0 c).arrAt 2 cfg0.N = out2 m c :=
  (dats m 0 c).arrAt_eq_of_cover 2 (out2 m c) (fun t hf => flushed_eq m c t ((flush0_2 t).mp hf)) res_cover

/-- The program's result after the host reshape: the product. -/
theorem result_eq (c : Dev nD) :
    Pipeline.afterTail₀ cfgs (dats m) 0 (V0 m) [hostOps1] c main_v3 = prod (Xarg m c) (Warg m c) := by
  unfold Pipeline.afterTail₀
  show StableHlo.after hostOps1 _ (Proc.devRef .tc main_v3) = _
  after_results
  have hA : (Pipeline.withArrays (cfgs 0).spec c (V0 m c) (fun w => (dats m 0 c).arrAt w (cfgs 0).N)
      (Proc.devRef .tc main_v2) : S3200x300.Idx → EReal) = out2 m c :=
    (Pipeline.withArrays_arr spec0 launch0.win.arr_inj c _ _ 2).trans (out_final m c)
  funext i
  obtain ⟨b, s, q, rfl⟩ : ∃ (b : Fin 64) (s : Fin 50) (q : Fin 300), i = ix3 b s q := ⟨i 0, i 1, i 2, eq_ix3 i⟩
  show shapeCast S64x50x300 (Pipeline.withArrays (cfgs 0).spec c (V0 m c) (fun w => (dats m 0 c).arrAt w (cfgs 0).N)
      (Proc.devRef .tc main_v2) : S3200x300.Idx → EReal) shapeCasts_S3200x300_S64x50x300 (ix3 b s q) = _
  rw [hA]
  have hb : b.val < 64 := b.isLt
  have hs : s.val < 50 := s.isLt
  -- entry (b, s, q) of the reshaped array is entry (50 b + s, q) of the flat one: the same row-major position
  rw [shapeCast_apply (out2 m c) shapeCasts_S3200x300_S64x50x300 (ix3 b s q) (ix2 (⟨50 * b.val + s.val, by omega⟩ : Fin 3200) q)
    (by rw [Shape.rowMajor_val_two, Shape.rowMajor_val_three]
        show (50 * b.val + s.val) * 300 + q.val = (b.val * 50 + s.val) * 300 + q.val
        omega)]
  exact partialSum_sixteen (Xarg m c) (Warg m c) b s q

/-- The idealized program runs, ends with the product in its result, and leaves its arguments as they were. -/
theorem kernel_run : θ_run defs (onTc (τ := τ) (main (F := Ideal))) ⟨m, fun _ => 0, ρ⟩ (fun r => ∀ c : Dev nD,
      r.2.mem ((c.tc : Thread nD τ).loc main_v3) = prod (Xarg m c) (Warg m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  -- the result and the two arguments are buffers no window stages: the frame run leaves each at what the host
  -- lines after the region compute for it
  (θ_run defs _ _).mono (fun r h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Final

end
-- ==== Proof.RefValue.lean ====
/-
  The reference, at the ideal instance, is the product: its one operation is the host's general product contracting
  the last axis of `X` with the first of `W`, which on extended reals is the plain sum over the 30000 contracted
  indices.
-/
import proofs.«167342_j17918603559083_1_alg».proof.Proof.Gen.ReferenceIdeal.Run
import proofs.«167342_j17918603559083_1_alg».proof.Proof.Gen.ReferenceIdeal.Read
import proofs.«167342_j17918603559083_1_alg».proof.Proof.Spec
import Idealize.ShloMosaic.Lib.ValueIdx
import Idealize.ShloMosaic.PureOps.Ideal.Laws

noncomputable section

namespace Cert.Embed.Ref

open Cert.ReferenceIdeal Cert.Embed Idealize.ShloMosaic Idealize.ShloMosaic.ValueIdx

/-- The reference's result term is the product. -/
theorem ref_eq (x0 : (⟨S64x50x30000, .f32⟩ : BufTy).Contents (Elt Ideal)) (x1 : (⟨S30000x300, .f32⟩ : BufTy).Contents (Elt Ideal)) :
    Cert.ReferenceIdeal.Read.val_main_v0 (F := Ideal) x0 x1 = prod x0 x1 := by
  funext i
  rw [Read.val_main_v0_apply]
  unfold prod
  refine Finset.sum_congr rfl fun k _ => ?_
  have el : Read.lidx_main_v0 i k
      = ix3 (n0 := 64) (n1 := 50) ⟨(i 0).val, (i 0).isLt⟩ ⟨(i 1).val, (i 1).isLt⟩ k :=
    funext fun a => Fin.ext (by
      match a with
      | ⟨0, _⟩ => rfl
      | ⟨1, _⟩ => rfl
      | ⟨2, _⟩ => rfl)
  have er : Read.ridx_main_v0 i k = ix2 (n1 := 300) k ⟨(i 2).val, (i 2).isLt⟩ :=
    funext fun a => Fin.ext (by
      match a with
      | ⟨0, _⟩ => rfl
      | ⟨1, _⟩ => rfl)
  rw [el, er]

end Cert.Embed.Ref

end
-- ==== Proof.lean ====
/-
  The certificate of a one-hot embedding lookup written as a tiled matrix product: `X : [64, 50, 30000]` times
  `W : [30000, 300]`, the kernel against `einsum("bsv,vd->bsd")`.

  The kernel flattens `X` to [3200, 30000], extends `W` by 720 zero rows to [30720, 300], and runs a 4 x 16 grid: point
  (i, k) adds the product of the 800 x 1920 block (i, k) of `X` with the 1920 x 300 block k of the extended `W` into a
  scratch accumulator, reset at k = 0 and copied to the result's block i at k = 15. The last column block of `X`
  overhangs the array by 720 columns: the staging buffer's tail there holds words nothing names.

  The frames (each program runs to the end, faults nowhere, leaves its arguments unchanged) need nothing of any
  contents: both input windows are fetched afresh at every point and the body branches on the grid point only
  (`FrameR`: relational proof data that says nothing, one text for the word-level and the idealized program). The
  reference has no kernel: its frame is its run.

  The value claim is over the extended reals. The unnamed tail of the left block meets, in the product, exactly the
  zero rows of the extended `W`, and `x * 0 = 0` for EVERY extended real, the infinities included: so the accumulator
  does not depend on the tail (`Accum.pay2_fill_indep`) and can be named point by point (`Accum.accAt`); after the
  sixteen column blocks it holds, entry by entry, the sum over all 30000 contracted indices (`Spec.partialSum_sixteen`:
  a regrouping of one finite sum, which on the extended reals needs no finiteness). The four result blocks tile the
  flattened result and a host reshape lays it out as [64, 50, 300] (`Final`). The reference's general product is the same
  sum (`RefValue.ref_eq`). The ideal pass rewrote nothing, so `preserves` has no conjunct.
-/
import proofs.«167342_j17918603559083_1_alg».proof.Defs
import proofs.«167342_j17918603559083_1_alg».proof.Proof.Gen.Kernel
import proofs.«167342_j17918603559083_1_alg».proof.Proof.Gen.KernelIdeal
import proofs.«167342_j17918603559083_1_alg».proof.Proof.Gen.ReferenceIdeal
import proofs.«167342_j17918603559083_1_alg».proof.Proof.Gen.Pre_finite_inputs
import proofs.«167342_j17918603559083_1_alg».proof.Proof.FrameR
import proofs.«167342_j17918603559083_1_alg».proof.Proof.FrameRIdeal
import proofs.«167342_j17918603559083_1_alg».proof.Proof.Final
import proofs.«167342_j17918603559083_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.FrameR.frame (F := Bits) m ρ

theorem frame_kernelIdeal : Cert.frame_KernelIdeal := fun m ρ _ => Cert.KernelIdeal.FrameR.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the product of the arguments, which agree. -/
theorem algebraic : Cert.algebraic_KernelIdeal_ReferenceIdeal := by
  intro m ρ m' ρ' _ hagree
  refine ⟨fun c => Cert.Embed.prod (Cert.KernelIdeal.Blocks.Xarg m c) (Cert.KernelIdeal.Blocks.Warg m c),
    Cert.KernelIdeal.Final.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, Cert.Embed.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
